-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_v28 : IVec S_ 1) (main_v33 : IVec S2x600000 1) : IVec S_ 1 :=
  let main_c_12 : IVec S_ 1 := constantI S_ 1 1#1
  let main_v34 : IVec S_ 1 := (fun x v => Host.reduce IntOp.andi x v reducesTo_S2x600000_S_d0_1 h_S_) main_v33 main_c_12
  let main_v35 : IVec S_ 1 := andi main_v28 main_v34
  main_v35

def fn_part1 {F : FTy → Type} [FloatOps F] (main_arg1 : IVec S2x600000 32) (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x600000 32 := broadcastInDim S2x600000 ![] bcast_S_S2x600000 main_c_10
  let main_v30 : IVec S2x600000 1 := cmpi .sge main_arg1 main_v29
  let main_c_11 : IVec S_ 32 := constantI S_ 32 100000#32
  let main_v31 : IVec S2x600000 32 := broadcastInDim S2x600000 ![] bcast_S_S2x600000 main_c_11
  let main_v32 : IVec S2x600000 1 := cmpi .slt main_arg1 main_v31
  let main_v33 : IVec S2x600000 1 := andi main_v30 main_v32
  fn_part2 (F := F) main_v28 main_v33

def fn {F : FTy → Type} [FloatOps F] (main_arg0 : FVec F S100000x128 .f32) (main_arg1 : IVec S2x600000 32) (main_arg2 : FVec F S600000x128 .f32) (main_arg3 : FVec F S256 .f32) (main_arg4 : FVec F S256 .f32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S1x128 : Shape := ⟨2, ![1, 128]⟩
abbrev S128x128 : Shape := ⟨2, ![128, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 69
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S1, .i32⟩
  | .hbm, ⟨18, _⟩ => ⟨S_, .i32⟩
  | .hbm, ⟨19, _⟩ => ⟨S600000x1, .i32⟩
  | .hbm, ⟨20, _⟩ => ⟨S600000x1, .i1⟩
  | .hbm, ⟨21, _⟩ => ⟨S1x1, .i32⟩
  | .hbm, ⟨22, _⟩ => ⟨S600000x1, .i32⟩
  | .hbm, ⟨23, _⟩ => ⟨S600000x1, .i1⟩
  | .hbm, ⟨24, _⟩ => ⟨S600000x1, .i1⟩
  | .hbm, ⟨25, _⟩ => ⟨S_, .i1⟩
  | .hbm, ⟨26, _⟩ => ⟨S600000, .i1⟩
  | .hbm, ⟨27, _⟩ => ⟨S600000x128, .f32⟩
  | .hbm, ⟨28, _⟩ => ⟨S600000x128, .i1⟩
  | .hbm, ⟨29, _⟩ => ⟨S_, .f32⟩
  | .hbm, ⟨30, _⟩ => ⟨S600000x128, .f32⟩
  | .hbm, ⟨31, _⟩ => ⟨S600000x128, .f32⟩
  | .hbm, ⟨32, _⟩ => ⟨S1x600000, .i32⟩
  | .hbm, ⟨33, _⟩ => ⟨S600000, .i32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S1, .i32⟩
  | .hbm, ⟨43, _⟩ => ⟨S_, .i32⟩
  | .hbm, ⟨44, _⟩ => ⟨S600000x1, .i32⟩
  | .hbm, ⟨45, _⟩ => ⟨S600000x1, .i1⟩
  | .hbm, ⟨46, _⟩ => ⟨S1x1, .i32⟩
  | .hbm, ⟨47, _⟩ => ⟨S600000x1, .i32⟩
  | .hbm, ⟨48, _⟩ => ⟨S600000x1, .i1⟩
  | .hbm, ⟨49, _⟩ => ⟨S600000x1, .i1⟩
  | .hbm, ⟨50, _⟩ => ⟨S_, .i1⟩
  | .hbm, ⟨51, _⟩ => ⟨S600000, .i1⟩
  | .hbm, ⟨52, _⟩ => ⟨S600000x128, .f32⟩
  | .hbm, ⟨53, _⟩ => ⟨S600000x128, .i1⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S128x128, .f32⟩
  | .hbm, ⟨66, _⟩ => ⟨S128x128, .f32⟩
  | .hbm, ⟨67, _⟩ => ⟨S1x128, .f32⟩
  | .hbm, ⟨68, _⟩ => ⟨S600000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S2x600000_S1x600000_1_0 : S2x600000.Slices ![1, 0] S1x600000
  slices_S256_S128_0 : S256.Slices ![0] S128
  shapeCasts_S128_S1x128 : S128.ShapeCasts S1x128
  slices_S256_S128_128 : S256.Slices ![128] S128
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S600000x1_S600000x128_1_0_n_n_0_1_1128_wf : GatherDims.WF S100000x128 S600000x1 S600000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .f32 = 32 ∨ (Rect.block (s := S600000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S600000x128.size a
  hwx0_2 : ∀ i : grid0.Coords, EltTy.bits .f32 = 32 ∨ (Rect.block (s := S600000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S600000x128.size a
  hwx0_10 : ∀ i : grid0.Coords, EltTy.bits .f32 = 32 ∨ (Rect.block (s := S600000x128) S4000x128.size (cc0_transform_10 i) (hinb0_10 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v2) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S1x256 : Shape := ⟨2, ![1, 256]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x256, .f32⟩
  | .hbm, ⟨30, _⟩ => ⟨S_, .f32⟩
  | .hbm, ⟨31, _⟩ => ⟨S600000, .f32⟩
  | .hbm, ⟨32, _⟩ => ⟨S600000x1, .f32⟩
  | .hbm, ⟨33, _⟩ => ⟨S_, .f32⟩
  | .hbm, ⟨34, _⟩ => ⟨S600000x1, .f32⟩
  | .hbm, ⟨35, _⟩ => ⟨S600000x1, .f32⟩
  | .hbm, ⟨36, _⟩ => ⟨S600000x256, .f32⟩
  | .hbm, ⟨37, _⟩ => ⟨S600000x256, .f32⟩
  | .hbm, ⟨38, _⟩ => ⟨S600000x256, .f32⟩
  | .hbm, ⟨39, _⟩ => ⟨S_, .f32⟩
  | .hbm, ⟨40, _⟩ => ⟨S600000, .f32⟩
  | .hbm, ⟨41, _⟩ => ⟨S600000x1, .f32⟩
  | .hbm, ⟨42, _⟩ => ⟨S_, .f32⟩
  | .hbm, ⟨43, _⟩ => ⟨S600000x1, .f32⟩
  | .hbm, ⟨44, _⟩ => ⟨S600000x1, .f32⟩
  | .hbm, ⟨45, _⟩ => ⟨S600000x256, .f32⟩
  | .hbm, ⟨46, _⟩ => ⟨S600000x256, .f32⟩
  | .hbm, ⟨47, _⟩ => ⟨S_, .f32⟩
  | .hbm, ⟨48, _⟩ => ⟨S600000x1, .f32⟩
  | .hbm, ⟨49, _⟩ => ⟨S600000x1, .f32⟩
  | .hbm, ⟨50, _⟩ => ⟨S600000x1, .f32⟩
  | .hbm, ⟨51, _⟩ => ⟨S600000x256, .f32⟩
  | .hbm, ⟨52, _⟩ => ⟨S600000x256, .f32⟩
  | .hbm, ⟨53, _⟩ => ⟨S1x256, .f32⟩
  | .hbm, ⟨54, _⟩ => ⟨S600000x256, .f32⟩
  | .hbm, ⟨55, _⟩ => ⟨S600000x256, .f32⟩
  | .hbm, ⟨56, _⟩ => ⟨S1x256, .f32⟩
  | .hbm, ⟨57, _⟩ => ⟨S600000x256, .f32⟩
  | .hbm, ⟨58, _⟩ => ⟨S600000x256, .f32⟩
  | .hbm, ⟨59, _⟩ => ⟨S_, .f32⟩
  | .hbm, ⟨60, _⟩ => ⟨S600000x256, .f32⟩
  | .hbm, ⟨61, _⟩ => ⟨S600000x256, .f32⟩
  | .hbm, ⟨62, _⟩ => ⟨S600000x128, .f32⟩
  | .hbm, ⟨63, _⟩ => ⟨S1x128, .f32⟩
  | .hbm, ⟨64, _⟩ => ⟨S600000x128, .f32⟩
  | .hbm, ⟨65, _⟩ => ⟨S600000x128, .f32⟩
  | .hbm, ⟨66, _⟩ => ⟨S600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  concatenates_S600000x128_S600000x128_S600000x256_d1 : Shape.Concatenates [S600000x128, S600000x128] S600000x256 1
  reducesTo_S600000x256_S600000_d1 : S600000x256.ReducesTo [1] S600000
  h_S_ : 0 < S_.numel
  bcast_S_S600000x1 : S_.BroadcastsInDim S600000x1 (![] : Fin 0 → Fin S600000x1.rank)
  bcast_S600000x1_S600000x256_0_1 : S600000x1.BroadcastsInDim S600000x256 (![0, 1] : Fin 2 → Fin S600000x256.rank)
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  gather_S100000x128_S600000x1_S600000x128_1_0_n_n_0_1_1128_wf : GatherDims.WF S100000x128 S600000x1 S600000x128 [1] [0] [] [0] [] 1 ![1, 128]
  dot_S600000x256_S256x128_S600000x128_1_0_0_1_n_n_wf : DotDims.WF S600000x256 S256x128 S600000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.NodeIds.lean ====
/-
  What the precondition says of the node ids, and what the wrapped index of an id in range looks like.

  The precondition's last conjunct is `all (0 ≤ edge_index ∧ edge_index < 100000)` (signed 32-bit compares): read back,
  every entry `w` of `edge_index` has `0 ≤ w < 100000`. For such a word the host's index wrap
  `if w < 0 then w + 100000 else w` is `w` itself, and `w` passes the take's bounds test `0 ≤ · ≤ 99999`.
  A reduction by `and` of an array of ones, started at one, is one.
-/
import proofs.«416969_j81123342287180_1_alg».proof.Pre_finite_inputs
import Idealize.ShloMosaic.Lib.ReduceAll
import Idealize.ShloMosaic.Lib.ValueIdx
import Idealize.ShloMosaic.Lib.StableHlo.Predicate

noncomputable section

namespace Cert.NodeIds

open Idealize.ShloMosaic

/-! ## Signed compares of 32-bit words, as inequalities of their integer values -/

theorem cmpi_sge_iff (a b : BitVec 32) : IntOp.cmpi .sge a b = 1#1 ↔ b.toInt ≤ a.toInt := by
  unfold IntOp.cmpi
  simp only [BitVec.sle, StableHlo.Predicate.ofBool_eq_one_iff, decide_eq_true_eq]

theorem cmpi_sle_iff (a b : BitVec 32) : IntOp.cmpi .sle a b = 1#1 ↔ a.toInt ≤ b.toInt := by
  unfold IntOp.cmpi
  simp only [BitVec.sle, StableHlo.Predicate.ofBool_eq_one_iff, decide_eq_true_eq]

theorem cmpi_slt_iff (a b : BitVec 32) : IntOp.cmpi .slt a b = 1#1 ↔ a.toInt < b.toInt := by
  unfold IntOp.cmpi
  simp only [BitVec.slt, StableHlo.Predicate.ofBool_eq_one_iff, decide_eq_true_eq]

/-- A node id `0 ≤ w < 100000`: wrapping a negative index leaves it alone, and it is within `[0, 99999]`. -/
theorem wrapped_in_range (w : BitVec 32) (hge : IntOp.cmpi .sge w 0#32 = 1#1) (hlt : IntOp.cmpi .slt w 100000#32 = 1#1) :
    IntOp.andi (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have z0 : (0#32 : BitVec 32).toInt = 0 := by decide
  have z1 : (100000#32 : BitVec 32).toInt = 100000 := by decide
  have z2 : (99999#32 : BitVec 32).toInt = 99999 := by decide
  have g : 0 ≤ w.toInt := by have := (cmpi_sge_iff w 0#32).1 hge; omega
  have l : w.toInt < 100000 := by have := (cmpi_slt_iff w 100000#32).1 hlt; omega
  have s : IntOp.cmpi .slt w 0#32 = 0#1 := by
    unfold IntOp.cmpi
    simp only [BitVec.slt, z0]
    rw [decide_eq_false (by omega)]
    rfl
  rw [s, ValueIdx.select_zero]
  exact IntOp.andi_eq_one.2 ⟨hge, (cmpi_sle_iff w 99999#32).2 (by omega)⟩

/-! ## A reduction by `and` of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 by decide]
    exact foldl_andi_ones f l fun n hn => h n (List.mem_cons_of_mem _ hn)

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x _ fun n _ => hx n

/-! ## The precondition's conjunct on `edge_index`, entry by entry -/

instance : Subsingleton Cert.Pre_finite_inputs.S_.Idx := ⟨fun _ _ => funext fun d => d.elim0⟩

theorem ids_in_range {F : FTy → Type} [FloatOps F] [Cert.Pre_finite_inputs.Facts]
    (a0 : FVec F Cert.Pre_finite_inputs.S100000x128 .f32) (a1 : IVec Cert.Pre_finite_inputs.S2x600000 32)
    (a2 : FVec F Cert.Pre_finite_inputs.S600000x128 .f32) (a3 a4 : FVec F Cert.Pre_finite_inputs.S256 .f32)
    (a5 : FVec F Cert.Pre_finite_inputs.S256x128 .f32) (a6 : FVec F Cert.Pre_finite_inputs.S128 .f32)
    (h : Cert.Pre_finite_inputs.fn (F := F) a0 a1 a2 a3 a4 a5 a6 = fun _ => 1#1) (i : Cert.Pre_finite_inputs.S2x600000.Idx) :
    IntOp.cmpi .sge (a1 i) 0#32 = 1#1 ∧ IntOp.cmpi .slt (a1 i) 100000#32 = 1#1 := by
  have h0 := congrFun h ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 i
  exact IntOp.andi_eq_one.1 h2

end Cert.NodeIds

end
-- ==== Proof.KernelEndpoints.lean ====
/-
  What the kernel's two endpoint windows hold when the region is entered. The host takes the rows of the node
  array at row `r` of the index pairs (`r = 0, 1`) the filling way: each index is wrapped
  (`if w < 0 then w + 100000 else w`) and laid in a column; the rows are gathered at the column; and a gathered row
  is kept where the wrapped index passes `0 ≤ · ≤ 99999` and replaced by a constant elsewhere. Where every entry of
  the bounds test is one, the take is the plain gather.
-/
import proofs.«416969_j81123342287180_1_alg».proof.Proof.Gen.KernelIdeal.Frame
import proofs.«416969_j81123342287180_1_alg».proof.Proof.NodeIds
import Idealize.ShloMosaic.Lib.StableHlo.Run
import Idealize.ShloMosaic.Lib.ValueIdx

noncomputable section

namespace Cert.KernelIdeal.Endpoints

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- Row 0 of the index pairs as a vector. -/
def idRow0 (x1 : IVec S2x600000 32) : IVec S600000 32 :=
  shapeCast S600000 (extractStridedSlice S1x600000 ![0, 0] x1 slices_S2x600000_S1x600000_0_0) shapeCasts_S1x600000_S600000
/-- Row 1 of the index pairs as a vector. -/
def idRow1 (x1 : IVec S2x600000 32) : IVec S600000 32 :=
  shapeCast S600000 (extractStridedSlice S1x600000 ![1, 0] x1 slices_S2x600000_S1x600000_1_0) shapeCasts_S1x600000_S600000

/-- A vector of indices, each wrapped, as a column. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- The bounds test `0 ≤ · ≤ 99999` of a column of indices, entry by entry. -/
def inBounds (i5 : IVec S600000x1 32) : IVec S600000x1 1 :=
  andi (cmpi .sge i5 (broadcastInDim S600000x1 ![] bcast_S_S600000x1 (constantI S_ 32 0#32)))
    (cmpi .sle i5 (broadcastInDim S600000x1 ![0, 1] bcast_S1x1_S600000x1_0_1 (broadcastInDim S1x1 ![1] bcast_S1_S1x1_1 (constantI S1 32 99999#32))))

/-- The filling take: the gathered row where the index is in bounds, a constant row elsewhere. -/
def takeFill (x0 : FVec F S100000x128 .f32) (i5 : IVec S600000x1 32) : FVec F S600000x128 .f32 :=
  select (broadcastInDim S600000x128 ![0] bcast_S600000_S600000x128_0
      (Host.reduce IntOp.andi (inBounds i5) (constantI S_ 1 1#1) reducesTo_S600000x1_S600000_d1 h_S_))
    (Host.gather gather_S100000x128_S600000x1_S600000x128_1_0_n_n_0_1_1128 x0 i5)
    (broadcastInDim S600000x128 ![] bcast_S_S600000x128 (constant S_ .f32 0x7FC00000#32))

set_option maxHeartbeats 4000000 in
/-- The first endpoint window's array. -/
theorem V_src (c : Dev nD) :
    (V m c main_v2 : S600000x128.Idx → Elt F .f32)
      = takeFill (m ((c : Thread nD τ).loc main_arg0)) (wrapCol (idRow0 (m ((c : Thread nD τ).loc main_arg1)))) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  simp only [cast_eq]
  rfl

set_option maxHeartbeats 4000000 in
/-- The second endpoint window's array. -/
theorem V_dst (c : Dev nD) :
    (V m c main_v5 : S600000x128.Idx → Elt F .f32)
      = takeFill (m ((c : Thread nD τ).loc main_arg0)) (wrapCol (idRow1 (m ((c : Thread nD τ).loc main_arg1)))) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  simp only [cast_eq]
  rfl

/-- Where the bounds test is one everywhere, the filling take is the gather. -/
theorem takeFill_of_inBounds (x0 : FVec F S100000x128 .f32) (i5 : IVec S600000x1 32) (h : ∀ i, inBounds i5 i = 1#1) :
    takeFill x0 i5 = Host.gather gather_S100000x128_S600000x1_S600000x128_1_0_n_n_0_1_1128 x0 i5 := by
  funext j
  unfold takeFill
  rw [select_apply]
  have hm : broadcastInDim S600000x128 ![0] bcast_S600000_S600000x128_0
      (Host.reduce IntOp.andi (inBounds i5) (constantI S_ 1 1#1) reducesTo_S600000x1_S600000_d1 h_S_) j = 1#1 := by
    unfold broadcastInDim
    exact Cert.NodeIds.reduce_andi_ones _ _ _ _ _ h rfl
  rw [hm, select_one]

/-- A vector of node ids `0 ≤ w < 100000`, wrapped, passes the bounds test everywhere. -/
theorem inBounds_wrapCol (v : IVec S600000 32)
    (hv : ∀ k, IntOp.cmpi .sge (v k) 0#32 = 1#1 ∧ IntOp.cmpi .slt (v k) 100000#32 = 1#1) (i : S600000x1.Idx) :
    inBounds (wrapCol v) i = 1#1 := by
  obtain ⟨k, hk⟩ : ∃ k : S600000.Idx, wrapCol v i
      = Scalar.select (IntOp.cmpi .slt (v k) 0#32) (IntOp.addi (v k) 100000#32) (v k) := ⟨_, rfl⟩
  show IntOp.andi (IntOp.cmpi .sge (wrapCol v i) 0#32) (IntOp.cmpi .sle (wrapCol v i) 99999#32) = 1#1
  rw [hk]
  exact Cert.NodeIds.wrapped_in_range _ (hv k).1 (hv k).2

/-- Each entry of a row of the index pairs is an entry of the index pairs. -/
theorem idRow0_mem (x1 : IVec S2x600000 32) (k : S600000.Idx) : ∃ i, idRow0 x1 k = x1 i := ⟨_, rfl⟩
theorem idRow1_mem (x1 : IVec S2x600000 32) (k : S600000.Idx) : ∃ i, idRow1 x1 k = x1 i := ⟨_, rfl⟩

end Cert.KernelIdeal.Endpoints

end
-- ==== Proof.KernelParams.lean ====
/-
  What the kernel's small resident windows hold when the region is entered: the host operations before the region
  cut the 256 scales and the 256 shifts into their halves and lay each half out as a 1 × 128 row, cut the 256 × 128
  weights into their two 128-row halves, and lay the bias out as a 1 × 128 row. Entry by entry: the first-half row
  at column `k` is entry `k` of the vector, the second-half row entry `128 + k`; row `k` of the second weight half
  is row `128 + k` of the weights.
-/
import proofs.«416969_j81123342287180_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Params

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-! ## The arrays, as terms of the arguments -/

/-- The first half of the scales, as a row. -/
theorem V_scale_lo (c : Dev nD) :
    (V m c main_v7 : S1x128.Idx → Elt F .f32) = shapeCast S1x128 (extractStridedSlice S128 ![0] (m ((c : Thread nD τ).loc main_arg3)) slices_S256_S128_0) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-- The second half of the scales, as a row. -/
theorem V_scale_hi (c : Dev nD) :
    (V m c main_v9 : S1x128.Idx → Elt F .f32) = shapeCast S1x128 (extractStridedSlice S128 ![128] (m ((c : Thread nD τ).loc main_arg3)) slices_S256_S128_128) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-- The first half of the shifts, as a row. -/
theorem V_shift_lo (c : Dev nD) :
    (V m c main_v11 : S1x128.Idx → Elt F .f32) = shapeCast S1x128 (extractStridedSlice S128 ![0] (m ((c : Thread nD τ).loc main_arg4)) slices_S256_S128_0) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-- The second half of the shifts, as a row. -/
theorem V_shift_hi (c : Dev nD) :
    (V m c main_v13 : S1x128.Idx → Elt F .f32) = shapeCast S1x128 (extractStridedSlice S128 ![128] (m ((c : Thread nD τ).loc main_arg4)) slices_S256_S128_128) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-- The first 128 rows of the weights. -/
theorem V_weight_lo (c : Dev nD) :
    (V m c main_v14 : S128x128.Idx → Elt F .f32) = extractStridedSlice S128x128 ![0, 0] (m ((c : Thread nD τ).loc main_arg5)) slices_S256x128_S128x128_0_0 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-- The last 128 rows of the weights. -/
theorem V_weight_hi (c : Dev nD) :
    (V m c main_v15 : S128x128.Idx → Elt F .f32) = extractStridedSlice S128x128 ![128, 0] (m ((c : Thread nD τ).loc main_arg5)) slices_S256x128_S128x128_128_0 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-- The bias, as a row. -/
theorem V_bias (c : Dev nD) :
    (V m c main_v16 : S1x128.Idx → Elt F .f32) = shapeCast S1x128 (m ((c : Thread nD τ).loc main_arg6)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results <;> rfl

/-! ## Read at an entry -/

/-- A 128-entry cut of a 256-vector from offset `o`, laid out as a row, reads at column `k` entry `o + k`. -/
theorem half_row_apply {α : Type} (o : Nat) (x : S256.Idx → α) (hs : S256.Slices ![o] S128) (hc : S128.ShapeCasts S1x128)
    (u : Fin 1) (k : Fin 128) (j : Fin 256) (hj : j.val = o + k.val) :
    shapeCast S1x128 (extractStridedSlice S128 ![o] x hs) hc (ix2 u k) = x (ix1 j) := by
  rw [shapeCast_a_1a_apply]
  exact extractStridedSlice_apply _ _ _ _ _ (fun ax => match ax with | ⟨0, _⟩ => hj)

end Cert.KernelIdeal.Params

end
-- ==== Proof.KernelBlocks.lean ====
/-
  The windows' blocks. Grid point `t` (of 150) works on rows `4000 t … 4000 t + 3999`: the three row-blocked input
  windows and the result window hold those rows of their arrays, the seven small windows hold their whole arrays at
  every point. Each block read at an entry is the array read at the entry's place in it.
-/
import proofs.«416969_j81123342287180_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem t_lt : ∀ t : Fin cfg0.N, t.val < 150 := (by decide +kernel : ∀ t : Fin grid0.N, t.val < 150)

/-- Row `p` of point `t`'s block is row `4000 t + p` of the array. -/
def rowOf (t : Fin cfg0.N) (p : Fin 4000) : Fin 600000 := ⟨t.val * 4000 + p.val, by have := t_lt t; have := p.isLt; omega⟩

/-! ## The windows' blocks, read at an entry -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 0's block at point `t`, of any contents `A` of its array, is rows `4000 t … 4000 t + 3999` of `A`. -/
theorem read0 (c : Dev nD) (A : Buf (Elt Ideal) ((cfg0.win 0).arr.view.loc (c.tc : Thread nD τ))) (t : Fin cfg0.N) (p : Fin 4000) (k : Fin 128) :
    ((cfg0.win 0).blk t).view.read (Elt Ideal) A (ix2 p k) = A (ix2 (rowOf t p) k) := by
  obtain ⟨e0, e1⟩ := idx0 t
  show A (((cfg0.win 0).blk t).view.emb (ix2 p k)) = A (ix2 (rowOf t p) k)
  refine congrArg A (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem blk0_at (c : Dev nD) (t : Fin cfg0.N) (p : Fin 4000) (k : Fin 128) :
    iblk m c 0 t (ix2 p k) = V m c main_v2 (ix2 (rowOf t p) k) := by
  unfold iblk
  exact read0 c (V m c (Pipeline.arrRef spec0 0)) t p k

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 1's block at point `t`, of any contents `A` of its array, is rows `4000 t … 4000 t + 3999` of `A`. -/
theorem read1 (c : Dev nD) (A : Buf (Elt Ideal) ((cfg0.win 1).arr.view.loc (c.tc : Thread nD τ))) (t : Fin cfg0.N) (p : Fin 4000) (k : Fin 128) :
    ((cfg0.win 1).blk t).view.read (Elt Ideal) A (ix2 p k) = A (ix2 (rowOf t p) k) := by
  obtain ⟨e0, e1⟩ := idx1 t
  show A (((cfg0.win 1).blk t).view.emb (ix2 p k)) = A (ix2 (rowOf t p) k)
  refine congrArg A (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

theorem blk1_at (c : Dev nD) (t : Fin cfg0.N) (p : Fin 4000) (k : Fin 128) :
    iblk m c 1 t (ix2 p k) = V m c main_v5 (ix2 (rowOf t p) k) := by
  unfold iblk
  exact read1 c (V m c (Pipeline.arrRef spec0 1)) t p k

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 2's block at point `t`, of any contents `A` of its array, is rows `4000 t … 4000 t + 3999` of `A`. -/
theorem read2 (c : Dev nD) (A : Buf (Elt Ideal) ((cfg0.win 2).arr.view.loc (c.tc : Thread nD τ))) (t : Fin cfg0.N) (p : Fin 4000) (k : Fin 128) :
    ((cfg0.win 2).blk t).view.read (Elt Ideal) A (ix2 p k) = A (ix2 (rowOf t p) k) := by
  obtain ⟨e0, e1⟩ := idx2 t
  show A (((cfg0.win 2).blk t).view.emb (ix2 p k)) = A (ix2 (rowOf t p) k)
  refine congrArg A (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

theorem blk2_at (c : Dev nD) (t : Fin cfg0.N) (p : Fin 4000) (k : Fin 128) :
    iblk m c 2 t (ix2 p k) = V m c main_arg2 (ix2 (rowOf t p) k) := by
  unfold iblk
  exact read2 c (V m c (Pipeline.arrRef spec0 2)) t p k

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block at every point, of any contents `A` of its array, is the whole of `A`. -/
theorem read3 (c : Dev nD) (A : Buf (Elt Ideal) ((cfg0.win 3).arr.view.loc (c.tc : Thread nD τ))) (t : Fin cfg0.N) (u : Fin 1) (k : Fin 128) :
    ((cfg0.win 3).blk t).view.read (Elt Ideal) A (ix2 u k) = A (ix2 u k) := by
  obtain ⟨e0, e1⟩ := idx3 t
  show A (((cfg0.win 3).blk t).view.emb (ix2 u k)) = A (ix2 u k)
  refine congrArg A (funext fun a => Fin.ext ?_)
  match a with
  | ⟨0, _⟩ => show win0_3.index t (0 : Fin 2) * 1 + 1 * u.val = u.val; omega
  | ⟨1, _⟩ => show win0_3.index t (1 : Fin 2) * 128 + 1 * k.val = k.val; omega

theorem blk3_at (c : Dev nD) (t : Fin cfg0.N) (u : Fin 1) (k : Fin 128) :
    iblk m c 3 t (ix2 u k) = V m c main_v7 (ix2 u k) := by
  unfold iblk
  exact read3 c (V m c (Pipeline.arrRef spec0 3)) t u k

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block at every point, of any contents `A` of its array, is the whole of `A`. -/
theorem read4 (c : Dev nD) (A : Buf (Elt Ideal) ((cfg0.win 4).arr.view.loc (c.tc : Thread nD τ))) (t : Fin cfg0.N) (u : Fin 1) (k : Fin 128) :
    ((cfg0.win 4).blk t).view.read (Elt Ideal) A (ix2 u k) = A (ix2 u k) := by
  obtain ⟨e0, e1⟩ := idx4 t
  show A (((cfg0.win 4).blk t).view.emb (ix2 u k)) = A (ix2 u k)
  refine congrArg A (funext fun a => Fin.ext ?_)
  match a with
  | ⟨0, _⟩ => show win0_4.index t (0 : Fin 2) * 1 + 1 * u.val = u.val; omega
  | ⟨1, _⟩ => show win0_4.index t (1 : Fin 2) * 128 + 1 * k.val = k.val; omega

theorem blk4_at (c : Dev nD) (t : Fin cfg0.N) (u : Fin 1) (k : Fin 128) :
    iblk m c 4 t (ix2 u k) = V m c main_v9 (ix2 u k) := by
  unfold iblk
  exact read4 c (V m c (Pipeline.arrRef spec0 4)) t u k

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block at every point, of any contents `A` of its array, is the whole of `A`. -/
theorem read5 (c : Dev nD) (A : Buf (Elt Ideal) ((cfg0.win 5).arr.view.loc (c.tc : Thread nD τ))) (t : Fin cfg0.N) (u : Fin 1) (k : Fin 128) :
    ((cfg0.win 5).blk t).view.read (Elt Ideal) A (ix2 u k) = A (ix2 u k) := by
  obtain ⟨e0, e1⟩ := idx5 t
  show A (((cfg0.win 5).blk t).view.emb (ix2 u k)) = A (ix2 u k)
  refine congrArg A (funext fun a => Fin.ext ?_)
  match a with
  | ⟨0, _⟩ => show win0_5.index t (0 : Fin 2) * 1 + 1 * u.val = u.val; omega
  | ⟨1, _⟩ => show win0_5.index t (1 : Fin 2) * 128 + 1 * k.val = k.val; omega

theorem blk5_at (c : Dev nD) (t : Fin cfg0.N) (u : Fin 1) (k : Fin 128) :
    iblk m c 5 t (ix2 u k) = V m c main_v11 (ix2 u k) := by
  unfold iblk
  exact read5 c (V m c (Pipeline.arrRef spec0 5)) t u k

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block at every point, of any contents `A` of its array, is the whole of `A`. -/
theorem read6 (c : Dev nD) (A : Buf (Elt Ideal) ((cfg0.win 6).arr.view.loc (c.tc : Thread nD τ))) (t : Fin cfg0.N) (u : Fin 1) (k : Fin 128) :
    ((cfg0.win 6).blk t).view.read (Elt Ideal) A (ix2 u k) = A (ix2 u k) := by
  obtain ⟨e0, e1⟩ := idx6 t
  show A (((cfg0.win 6).blk t).view.emb (ix2 u k)) = A (ix2 u k)
  refine congrArg A (funext fun a => Fin.ext ?_)
  match a with
  | ⟨0, _⟩ => show win0_6.index t (0 : Fin 2) * 1 + 1 * u.val = u.val; omega
  | ⟨1, _⟩ => show win0_6.index t (1 : Fin 2) * 128 + 1 * k.val = k.val; omega

theorem blk6_at (c : Dev nD) (t : Fin cfg0.N) (u : Fin 1) (k : Fin 128) :
    iblk m c 6 t (ix2 u k) = V m c main_v13 (ix2 u k) := by
  unfold iblk
  exact read6 c (V m c (Pipeline.arrRef spec0 6)) t u k

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block at every point, of any contents `A` of its array, is the whole of `A`. -/
theorem read7 (c : Dev nD) (A : Buf (Elt Ideal) ((cfg0.win 7).arr.view.loc (c.tc : Thread nD τ))) (t : Fin cfg0.N) (u : Fin 128) (k : Fin 128) :
    ((cfg0.win 7).blk t).view.read (Elt Ideal) A (ix2 u k) = A (ix2 u k) := by
  obtain ⟨e0, e1⟩ := idx7 t
  show A (((cfg0.win 7).blk t).view.emb (ix2 u k)) = A (ix2 u k)
  refine congrArg A (funext fun a => Fin.ext ?_)
  match a with
  | ⟨0, _⟩ => show win0_7.index t (0 : Fin 2) * 128 + 1 * u.val = u.val; omega
  | ⟨1, _⟩ => show win0_7.index t (1 : Fin 2) * 128 + 1 * k.val = k.val; omega

theorem blk7_at (c : Dev nD) (t : Fin cfg0.N) (u : Fin 128) (k : Fin 128) :
    iblk m c 7 t (ix2 u k) = V m c main_v14 (ix2 u k) := by
  unfold iblk
  exact read7 c (V m c (Pipeline.arrRef spec0 7)) t u k

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block at every point, of any contents `A` of its array, is the whole of `A`. -/
theorem read8 (c : Dev nD) (A : Buf (Elt Ideal) ((cfg0.win 8).arr.view.loc (c.tc : Thread nD τ))) (t : Fin cfg0.N) (u : Fin 128) (k : Fin 128) :
    ((cfg0.win 8).blk t).view.read (Elt Ideal) A (ix2 u k) = A (ix2 u k) := by
  obtain ⟨e0, e1⟩ := idx8 t
  show A (((cfg0.win 8).blk t).view.emb (ix2 u k)) = A (ix2 u k)
  refine congrArg A (funext fun a => Fin.ext ?_)
  match a with
  | ⟨0, _⟩ => show win0_8.index t (0 : Fin 2) * 128 + 1 * u.val = u.val; omega
  | ⟨1, _⟩ => show win0_8.index t (1 : Fin 2) * 128 + 1 * k.val = k.val; omega

theorem blk8_at (c : Dev nD) (t : Fin cfg0.N) (u : Fin 128) (k : Fin 128) :
    iblk m c 8 t (ix2 u k) = V m c main_v15 (ix2 u k) := by
  unfold iblk
  exact read8 c (V m c (Pipeline.arrRef spec0 8)) t u k

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9's block at every point, of any contents `A` of its array, is the whole of `A`. -/
theorem read9 (c : Dev nD) (A : Buf (Elt Ideal) ((cfg0.win 9).arr.view.loc (c.tc : Thread nD τ))) (t : Fin cfg0.N) (u : Fin 1) (k : Fin 128) :
    ((cfg0.win 9).blk t).view.read (Elt Ideal) A (ix2 u k) = A (ix2 u k) := by
  obtain ⟨e0, e1⟩ := idx9 t
  show A (((cfg0.win 9).blk t).view.emb (ix2 u k)) = A (ix2 u k)
  refine congrArg A (funext fun a => Fin.ext ?_)
  match a with
  | ⟨0, _⟩ => show win0_9.index t (0 : Fin 2) * 1 + 1 * u.val = u.val; omega
  | ⟨1, _⟩ => show win0_9.index t (1 : Fin 2) * 128 + 1 * k.val = k.val; omega

theorem blk9_at (c : Dev nD) (t : Fin cfg0.N) (u : Fin 1) (k : Fin 128) :
    iblk m c 9 t (ix2 u k) = V m c main_v16 (ix2 u k) := by
  unfold iblk
  exact read9 c (V m c (Pipeline.arrRef spec0 9)) t u k

theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Entry `(p, q)` of the result window's block at point `t` is entry `(4000 t + p, q)` of the result array. -/
theorem emb10 (t : Fin cfg0.N) (p : Fin 4000) (q : Fin 128) :
    ((cfg0.win 10).blk t).view.emb (ix2 p q) = ix2 (rowOf t p) q := by
  obtain ⟨e0, e1⟩ := idx10 t
  funext a
  apply Fin.ext
  match a with
  | ⟨0, _⟩ => show win0_10.index t (0 : Fin 2) * 4000 + 1 * p.val = t.val * 4000 + p.val; omega
  | ⟨1, _⟩ => show win0_10.index t (1 : Fin 2) * 128 + 1 * q.val = q.val; omega

end Cert.KernelIdeal.Blocks

end
-- ==== Proof.EdgeNorm.lean ====
/-
  One edge's update, as a function of that edge's data alone, in the two arrangements the two programs use.

  An edge with endpoint features `a, b : Fin 128 → EReal` is normalised over the 256 numbers `a ++ b`:
  `μ = (Σ a + Σ b) / 256`, `σ² = (Σ (a - μ)² + Σ (b - μ)²) / 256`, `r = (σ² + ε)^(-1/2)`, each entry becomes
  `max ((x - μ) · r · γ + β) 0`, and column `q` of the update is `e + Σ_k act_k · W k q + bias q`.
  * `splitRow` keeps the two halves apart: two sums of 128 terms each, the mean taken by multiplying with `2⁻⁸`,
    the bias added last.
  * `joinedRow` works on the joined 256-vector: one sum of 256 terms, the mean taken by dividing by `256`, the
    bias added to the product before the edge's own entry.
  `joinedRow_append`: on a joined vector the two agree on all extended reals — a sum over `Fin 256` is the sum of
  its two halves, dividing by `256` is multiplying by `2⁻⁸`, and addition is associative; nothing needs finiteness.
-/
import Idealize.ShloMosaic.PureOps.Ideal
import Idealize.ShloMosaic.PureOps.Ideal.Laws
import Mathlib.Algebra.BigOperators.Fin

noncomputable section

namespace Cert.EdgeNorm

open Idealize.ShloMosaic

/-- The four float constants of the two programs, as the extended reals their words denote. -/
abbrev cInv : EReal := Ideal.ofBits .f32 0x3B800000#32
abbrev c256 : EReal := Ideal.ofBits .f32 0x43800000#32
abbrev cEps : EReal := Ideal.ofBits .f32 0x3727C5AC#32
abbrev cZero : EReal := Ideal.ofBits .f32 0x00000000#32

theorem c256_eq : c256 = ((256 : ℝ) : EReal) := by
  simp [c256, Ideal.ofBits, Ideal.ieee, -EReal.coe_mul]; norm_num

theorem cInv_eq : cInv = ((1 / 256 : ℝ) : EReal) := by
  simp [cInv, Ideal.ofBits, Ideal.ieee, -EReal.coe_mul]; norm_num

theorem cZero_eq : cZero = 0 := Ideal.ofBits_zero_f32

/-- Dividing by the word `256.0` is multiplying by the word `2⁻⁸`, on every extended real. -/
theorem div_c256 (x : EReal) : Ideal.div x c256 = x * cInv := by
  rw [c256_eq, cInv_eq, Ideal.div_coe (by norm_num : (256 : ℝ) ≠ 0)]

/-- One normalised, scaled, shifted and rectified entry. -/
def act (x mu r g be : EReal) : EReal := max ((x - mu) * r * g + be) cZero

/-! ## The halves kept apart -/

def mean2 (a b : Fin 128 → EReal) : EReal := ((∑ k, a k) + (∑ k, b k)) * cInv

def rstd2 (a b : Fin 128 → EReal) : EReal :=
  Ideal.rsqrt (((∑ k, (a k - mean2 a b) * (a k - mean2 a b)) + (∑ k, (b k - mean2 a b) * (b k - mean2 a b))) * cInv + cEps)

def splitRow (a b g1 g2 be1 be2 W1 W2 : Fin 128 → EReal) (e bias : EReal) : EReal :=
  (e + ((∑ k, act (a k) (mean2 a b) (rstd2 a b) (g1 k) (be1 k) * W1 k)
      + (∑ k, act (b k) (mean2 a b) (rstd2 a b) (g2 k) (be2 k) * W2 k))) + bias

/-! ## The joined vector -/

def mean1 (h : Fin 256 → EReal) : EReal := Ideal.div (cZero + ∑ k, h k) c256

def rstd1 (h : Fin 256 → EReal) : EReal :=
  Ideal.rsqrt (Ideal.div (cZero + ∑ k, (h k - mean1 h) * (h k - mean1 h)) c256 + cEps)

def joinedRow (h g be W : Fin 256 → EReal) (e bias : EReal) : EReal :=
  e + ((∑ k, act (h k) (mean1 h) (rstd1 h) (g k) (be k) * W k) + bias)

/-- Two 128-vectors laid end to end. -/
def append (a b : Fin 128 → EReal) : Fin 256 → EReal := fun k =>
  if h : k.val < 128 then a ⟨k.val, h⟩ else b ⟨k.val - 128, by have := k.isLt; omega⟩

theorem append_lo (a b : Fin 128 → EReal) (i : Fin 128) : append a b ⟨i.val, by have := i.isLt; omega⟩ = a i := by
  unfold append; rw [dif_pos (show i.val < 128 from i.isLt)]

theorem append_hi (a b : Fin 128 → EReal) (i : Fin 128) : append a b ⟨128 + i.val, by have := i.isLt; omega⟩ = b i := by
  unfold append
  rw [dif_neg (show ¬ (128 + i.val < 128) by omega)]
  exact congrArg b (Fin.ext (by show 128 + i.val - 128 = i.val; omega))

/-- A sum over 256 indices is the sum over the first 128 plus the sum over the last 128. -/
theorem sum_halves (f : Fin 256 → EReal) :
    ∑ k, f k = (∑ i : Fin 128, f ⟨i.val, by have := i.isLt; omega⟩) + (∑ i : Fin 128, f ⟨128 + i.val, by have := i.isLt; omega⟩) :=
  Fin.sum_univ_add (a := 128) (b := 128) f

theorem mean1_append (a b : Fin 128 → EReal) : mean1 (append a b) = mean2 a b := by
  unfold mean1 mean2
  rw [div_c256, cZero_eq, zero_add, sum_halves]
  simp only [append_lo, append_hi]

theorem rstd1_append (a b : Fin 128 → EReal) : rstd1 (append a b) = rstd2 a b := by
  unfold rstd1 rstd2
  rw [div_c256, cZero_eq, zero_add, sum_halves, mean1_append]
  simp only [append_lo, append_hi]

/-- THE LAW: the joined arrangement of a joined vector is the split arrangement of its halves. -/
theorem joinedRow_append (a b g1 g2 be1 be2 W1 W2 : Fin 128 → EReal) (e bias : EReal) :
    joinedRow (append a b) (append g1 g2) (append be1 be2) (append W1 W2) e bias
      = splitRow a b g1 g2 be1 be2 W1 W2 e bias := by
  unfold joinedRow splitRow
  rw [sum_halves, mean1_append, rstd1_append]
  simp only [append_lo, append_hi, add_assoc]

end Cert.EdgeNorm

end
-- ==== Proof.KernelRow.lean ====
/-
  The kernel body's stored value at one entry of its block, as a function of the body's loaded blocks:
  row `p`, column `q` of the 4000 × 128 result is `EdgeNorm.splitRow` of row `p` of the two endpoint blocks,
  the four 1 × 128 rows of scales and shifts, column `q` of the two 128 × 128 weight blocks, entry `(p, q)` of the
  edge block and entry `q` of the bias row.
-/
import proofs.«416969_j81123342287180_1_alg».proof.Proof.Gen.KernelIdeal.Skeleton
import proofs.«416969_j81123342287180_1_alg».proof.Proof.EdgeNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.EdgeNorm

/-! ## Two layout operations read at an index given by coordinates -/

/-- An `[a]` array cast to the column `[a, 1]` reads, at `(p, u)`, the operand at `p`: the two row-major positions
    are `p` and `p * 1 + u` with `u = 0`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum along a row -/

/-- The body's sum over axis 1 of a 4000 × 128 block, read at row `p`: the sum of that row's 128 entries. The inserted
    index of the one-axis sum has `p` on axis 0 and the summation coordinate on axis 1, by computation. -/
theorem rowSum_apply (src : FVec Ideal S4000x128 .f32) (p : Fin 4000) :
    multiReduction (F := Ideal) .add [1] S4000 src 0x00000000#32 reduces_S4000x128_S4000 (.inl rfl) rfl (ix1 p)
      = ∑ k : Fin 128, src (ix2 p k) := by
  refine (Ideal.multiReduction_add_single src 0x00000000#32 reduces_S4000x128_S4000 (.inl rfl) rfl (ix1 p)).trans ?_
  refine Finset.sum_congr rfl fun k _ => congrArg src ?_
  funext c
  match c with
  | ⟨0, _⟩ => rfl
  | ⟨1, _⟩ => rfl

/-! ## The payloads of the normalisation, read at an index -/

/-- The two identity shape casts of the endpoint blocks. -/
theorem pay2_eq (x0 : Vec Ideal S4000x128 .f32) : k0_pay2 (F := Ideal) x0 = x0 := shapeCast_self _ _
theorem pay3_eq (x1 : Vec Ideal S4000x128 .f32) : k0_pay3 (F := Ideal) x1 = x1 := shapeCast_self _ _

/-- The column of row means: entry `p` is (row sum of `x0` + row sum of `x1`) · 2⁻⁸. -/
theorem pay4_at (x0 x1 : Vec Ideal S4000x128 .f32) (p : Fin 4000) (u : Fin 1) :
    k0_pay4 (F := Ideal) x0 x1 (ix2 p u) = mean2 (fun k => x0 (ix2 p k)) (fun k => x1 (ix2 p k)) := by
  unfold k0_pay4
  rw [pay2_eq, pay3_eq]
  show (shapeCast S4000x1 _ shapeCasts_S4000_S4000x1 (ix2 p u) + shapeCast S4000x1 _ shapeCasts_S4000_S4000x1 (ix2 p u)) * cInv = _
  rw [shapeCast_a_a1_apply, shapeCast_a_a1_apply, rowSum_apply, rowSum_apply]
  rfl

/-- The centred first block: entry `(p, k)` minus the mean of row `p`. -/
theorem pay5_at (x0 x1 : Vec Ideal S4000x128 .f32) (p : Fin 4000) (k : Fin 128) :
    k0_pay5 (F := Ideal) x0 x1 (ix2 p k)
      = x0 (ix2 p k) - mean2 (fun k => x0 (ix2 p k)) (fun k => x1 (ix2 p k)) := by
  unfold k0_pay5
  rw [pay2_eq]
  show x0 (ix2 p k) - broadcastTo S4000x128 (k0_pay4 x0 x1) broadcasts_S4000x1_S4000x128 (ix2 p k) = _
  rw [broadcastTo_a1_ab_apply, pay4_at]

/-- The centred second block. -/
theorem pay6_at (x0 x1 : Vec Ideal S4000x128 .f32) (p : Fin 4000) (k : Fin 128) :
    k0_pay6 (F := Ideal) x0 x1 (ix2 p k)
      = x1 (ix2 p k) - mean2 (fun k => x0 (ix2 p k)) (fun k => x1 (ix2 p k)) := by
  unfold k0_pay6
  rw [pay3_eq]
  show x1 (ix2 p k) - broadcastTo S4000x128 (k0_pay4 x0 x1) broadcasts_S4000x1_S4000x128 (ix2 p k) = _
  rw [broadcastTo_a1_ab_apply, pay4_at]

/-- The column of reciprocal standard deviations: entry `p` is
    `rsqrt ((Σ centred x0² + Σ centred x1²) · 2⁻⁸ + ε)` over row `p`. -/
theorem pay7_at (x0 x1 : Vec Ideal S4000x128 .f32) (p : Fin 4000) (u : Fin 1) :
    k0_pay7 (F := Ideal) x0 x1 (ix2 p u) = rstd2 (fun k => x0 (ix2 p k)) (fun k => x1 (ix2 p k)) := by
  unfold k0_pay7 rstd2
  show Ideal.rsqrt ((shapeCast S4000x1 _ shapeCasts_S4000_S4000x1 (ix2 p u)
      + shapeCast S4000x1 _ shapeCasts_S4000_S4000x1 (ix2 p u)) * cInv + cEps) = _
  rw [shapeCast_a_a1_apply, shapeCast_a_a1_apply, rowSum_apply, rowSum_apply]
  simp only [mulf_apply, pay5_at, pay6_at]

/-- The first normalised block before the rectifier: centred, scaled by the row's reciprocal deviation and by `x3`'s
    entry of the column, shifted by `x5`'s. -/
theorem pay8_at (x0 x1 : Vec Ideal S4000x128 .f32) (x3 x5 : Vec Ideal S1x128 .f32) (p : Fin 4000) (k : Fin 128) :
    k0_pay8 (F := Ideal) x0 x1 x3 x5 (ix2 p k)
      = (x0 (ix2 p k) - mean2 (fun k => x0 (ix2 p k)) (fun k => x1 (ix2 p k)))
          * rstd2 (fun k => x0 (ix2 p k)) (fun k => x1 (ix2 p k)) * x3 (ix2 (0 : Fin 1) k) + x5 (ix2 (0 : Fin 1) k) := by
  unfold k0_pay8
  rw [shapeCast_self x3, shapeCast_self x5]
  show k0_pay5 x0 x1 (ix2 p k) * broadcastTo S4000x128 (k0_pay7 x0 x1) broadcasts_S4000x1_S4000x128 (ix2 p k)
      * broadcastTo S4000x128 x3 broadcasts_S1x128_S4000x128 (ix2 p k)
      + broadcastTo S4000x128 x5 broadcasts_S1x128_S4000x128 (ix2 p k) = _
  rw [broadcastTo_a1_ab_apply, broadcastTo_1b_ab_apply, broadcastTo_1b_ab_apply, pay5_at, pay7_at]

/-- The second block, centred and scaled by the row's reciprocal deviation. -/
theorem pay9_at (x0 x1 : Vec Ideal S4000x128 .f32) (p : Fin 4000) (k : Fin 128) :
    k0_pay9 (F := Ideal) x0 x1 (ix2 p k)
      = (x1 (ix2 p k) - mean2 (fun k => x0 (ix2 p k)) (fun k => x1 (ix2 p k)))
          * rstd2 (fun k => x0 (ix2 p k)) (fun k => x1 (ix2 p k)) := by
  unfold k0_pay9
  show k0_pay6 x0 x1 (ix2 p k) * broadcastTo S4000x128 (k0_pay7 x0 x1) broadcasts_S4000x1_S4000x128 (ix2 p k) = _
  rw [broadcastTo_a1_ab_apply, pay6_at, pay7_at]

/-- The second scale row spread over the block's rows. -/
theorem pay10_at (x4 : Vec Ideal S1x128 .f32) (p : Fin 4000) (k : Fin 128) :
    k0_pay10 (F := Ideal) x4 (ix2 p k) = x4 (ix2 (0 : Fin 1) k) := by
  unfold k0_pay10
  rw [shapeCast_self x4]
  exact broadcastTo_1b_ab_apply _ _ _ _

/-! ## The product with a weight block -/

/-- The four coordinates of the product's operand indices: the left operand is read at (output row, contraction
    coordinate), the right one at (contraction coordinate, output column). -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 block times a 128 × 128 block into the zero accumulator, read at `(p, q)`: the sum over the 128
    contraction coordinates of row `p` of the left block against column `q` of the right one. The contraction index set
    has one axis of extent 128 and is re-indexed by its coordinate. -/
theorem matmul_at {φ₁ φ₂ : FTy} (A : FVec Ideal S4000x128 φ₁) (B : FVec Ideal S128x128 φ₂) (p : Fin 4000) (q : Fin 128) :
    matmul (F := Ideal) dot_S4000x128_S128x128_S4000x128_1_0_0_1_n_n none A B (constant S4000x128 .f32 0x00000000#32) (ix2 p q)
      = ∑ k : Fin 128, A (ix2 p k) * B (ix2 k q) := by
  show FloatOps.matmul dot_S4000x128_S128x128_S4000x128_1_0_0_1_n_n none A B (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The stored value -/

theorem payload_at (x0 x1 x2 : Vec Ideal S4000x128 .f32) (x3 x4 x5 x6 : Vec Ideal S1x128 .f32)
    (x7 x8 : Vec Ideal S128x128 .f32) (x9 : Vec Ideal S1x128 .f32) (p : Fin 4000) (q : Fin 128) :
    k0_pay1 (F := Ideal) (k0_pay8 x0 x1 x3 x5) (k0_pay9 x0 x1) (k0_pay10 x4) x6 x7 x8 x2 x9 (ix2 p q)
      = splitRow (fun k => x0 (ix2 p k)) (fun k => x1 (ix2 p k))
          (fun k => x3 (ix2 (0 : Fin 1) k)) (fun k => x4 (ix2 (0 : Fin 1) k))
          (fun k => x5 (ix2 (0 : Fin 1) k)) (fun k => x6 (ix2 (0 : Fin 1) k))
          (fun k => x7 (ix2 k q)) (fun k => x8 (ix2 k q)) (x2 (ix2 p q)) (x9 (ix2 (0 : Fin 1) q)) := by
  unfold k0_pay1 splitRow
  rw [shapeCast_self x6, shapeCast_self x7, shapeCast_self x8, shapeCast_self x9]
  show (x2 (ix2 p q)
      + (matmul (F := Ideal) dot_S4000x128_S128x128_S4000x128_1_0_0_1_n_n none _ _ (constant S4000x128 .f32 0x00000000#32) (ix2 p q)
        + matmul (F := Ideal) dot_S4000x128_S128x128_S4000x128_1_0_0_1_n_n none _ _ (constant S4000x128 .f32 0x00000000#32) (ix2 p q)))
      + broadcastTo S4000x128 x9 broadcasts_S1x128_S4000x128 (ix2 p q) = _
  rw [matmul_at, matmul_at, broadcastTo_1b_ab_apply]
  simp only [truncf_apply, maximumf_apply, addf_apply, mulf_apply, broadcast_apply, pay8_at, pay9_at, pay10_at,
    broadcastTo_1b_ab_apply, act]
  rfl

end Cert.KernelIdeal.RowValue

end
-- ==== Proof.KernelArray.lean ====
/-
  From the blocks to the array. Grid point `t` (of 150) works on rows `4000 t … 4000 t + 3999`: it loads those rows
  of the two endpoint arrays and of the edge array, the whole of the seven small arrays, and writes back those rows
  of the result. Entry `(p, q)` of what it writes is `EdgeNorm.splitRow` of the loaded rows, so it is entry
  `(4000 t + p, q)` of ONE array function `kerArr` of the arrays as the region finds them; the 150 blocks cover the
  600000 rows; so the result array after the run is `kerArr`.
-/
import proofs.«416969_j81123342287180_1_alg».proof.Proof.KernelBlocks
import proofs.«416969_j81123342287180_1_alg».proof.Proof.KernelRow
import proofs.«416969_j81123342287180_1_alg».proof.Proof.EdgeNorm
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem Idealize.ShloMosaic.ValueIdx Cert.EdgeNorm
open Idealize.ShloMosaic.Pipeline (Dat)
open Cert.KernelIdeal.Blocks

variable (m : (ℓ : Loc nD τ sig) → Buf (Elt Ideal) ℓ) (ρ : Dev nD → PrngReg)

/-! ## The result as one function of the arrays the region finds -/

/-- Entry `(e, q)`: the split arrangement of row `e` of the endpoint arrays, the four rows of scales and shifts,
    column `q` of the two weight halves, the edge entry and the bias entry. -/
def kerRow (c : Dev nD) (e : Fin 600000) (q : Fin 128) : EReal :=
  splitRow (fun k => V m c main_v2 (ix2 e k)) (fun k => V m c main_v5 (ix2 e k))
    (fun k => V m c main_v7 (ix2 (0 : Fin 1) k)) (fun k => V m c main_v9 (ix2 (0 : Fin 1) k))
    (fun k => V m c main_v11 (ix2 (0 : Fin 1) k)) (fun k => V m c main_v13 (ix2 (0 : Fin 1) k))
    (fun k => V m c main_v14 (ix2 k q)) (fun k => V m c main_v15 (ix2 k q))
    (V m c main_arg2 (ix2 e q)) (V m c main_v16 (ix2 (0 : Fin 1) q))

def kerArr (c : Dev nD) : S600000x128.Idx → EReal :=
  fun i => kerRow m c ⟨(i 0).val, idx2_lt0 i⟩ ⟨(i 1).val, idx2_lt1 i⟩

theorem kerArr_ix2 (c : Dev nD) (e : Fin 600000) (q : Fin 128) : kerArr m c (ix2 e q) = kerRow m c e q := rfl

/-- WHAT POINT `t` WRITES BACK is block `t` of `kerArr`. -/
theorem flushed_eq (c : Dev nD) (t : Fin cfg0.N) :
    (dats m 0 c).flushed 10 t = ((cfg0.win 10).blk t).view.read (Elt Ideal) (kerArr m c) := by
  rw [Cert.KernelIdeal.Value.flushed10]
  unfold out0_10
  rw [View.canon_unit_zero hz]
  simp only [View.ld_unit_zero (S := S4000x128) hz, View.ld_unit_zero (S := S1x128) hz, View.ld_unit_zero (S := S128x128) hz]
  funext j
  obtain ⟨p, q, rfl⟩ : ∃ (p : Fin 4000) (q : Fin 128), j = ix2 p q := ⟨j 0, j 1, eq_ix2 j⟩
  show k0_pay1 (F := Ideal) (k0_pay8 (iblk m c 0 t) (iblk m c 1 t) (iblk m c 3 t) (iblk m c 5 t)) (k0_pay9 (iblk m c 0 t) (iblk m c 1 t))
      (k0_pay10 (iblk m c 4 t)) (iblk m c 6 t) (iblk m c 7 t) (iblk m c 8 t) (iblk m c 2 t) (iblk m c 9 t) (ix2 p q)
    = kerArr m c (((cfg0.win 10).blk t).view.emb (ix2 p q))
  refine (Cert.KernelIdeal.RowValue.payload_at (iblk m c 0 t) (iblk m c 1 t) (iblk m c 2 t) (iblk m c 3 t) (iblk m c 4 t) (iblk m c 5 t)
    (iblk m c 6 t) (iblk m c 7 t) (iblk m c 8 t) (iblk m c 9 t) p q).trans ?_
  rw [emb10 t p q, kerArr_ix2]
  unfold kerRow
  simp only [blk0_at, blk1_at, blk2_at, blk3_at, blk4_at, blk5_at, blk6_at, blk7_at, blk8_at, blk9_at]

/-! ## The cover -/

theorem mem_blk (t : Fin cfg0.N) (i : S600000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v17).slice (win0_10.rect t)).set ↔ _
  rw [View.set_slice_whole, Rect.mem_set_unit]
  exact Iff.rfl

/-- Every block row of the result is some point's. -/
theorem idx_onto : ∀ q0 : Fin 150, ∃ t : Fin cfg0.N, t.val = q0.val :=
  (by decide +kernel : ∀ q0 : Fin 150, ∃ t : Fin grid0.N, t.val = q0.val)

/-- Every entry of the result array lies in the block of the point `row / 4000`. -/
theorem cover (i : S600000x128.Idx) : ∃ t : Fin cfg0.N, (cfg0.win 10).flush t = true ∧ i ∈ ((cfg0.win 10).blk t).view.set := by
  have hi0 : (i 0).val < 600000 := idx2_lt0 i
  have hi1 : (i 1).val < 128 := idx2_lt1 i
  obtain ⟨t, ht⟩ := idx_onto ⟨(i 0).val / 4000, by omega⟩
  have ht' : t.val = (i 0).val / 4000 := ht
  obtain ⟨e0, e1⟩ := idx10 t
  refine ⟨t, flush0_10 t, ?_⟩
  rw [mem_blk]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 128 ≤ (i 1).val ∧ (i 1).val < win0_10.index t (1 : Fin 2) * 128 + 128; omega

/-- THE ARRAY after the run. -/
theorem final (c : Dev nD) : (dats m 0 c).arrAt 10 cfg0.N = kerArr m c :=
  (dats m 0 c).arrAt_eq_of_cover 10 (kerArr m c) (fun t _ => flushed_eq m c t) cover

/-- The frame run re-posted: the result array at `kerArr`, the arguments unchanged. -/
theorem run : θ_run defs (onTc (τ := τ) (main (F := Ideal))) ⟨m, fun _ => 0, ρ⟩ fun r => ∀ c : Dev nD,
      r.2.mem ((c : Thread nD τ).loc main_v17) = kerArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.ArrayValue

end
-- ==== Proof.EdgeArray.lean ====
/-
  The whole result array as ONE function of the argument arrays: entry `(e, q)` is `EdgeNorm.splitRow` of row `e`
  of the two gathered endpoint arrays, the two halves of the 256 scales and of the 256 shifts, column `q` of the
  two 128-row halves of the 256 × 128 weights, entry `(e, q)` of the edge array and entry `q` of the bias.
-/
import proofs.«416969_j81123342287180_1_alg».proof.Proof.EdgeNorm
import Idealize.ShloMosaic.Lib.ValueIdx

noncomputable section

namespace Cert.EdgeNorm

open Idealize.ShloMosaic Idealize.ShloMosaic.ValueIdx

/-- The first half of a 256-vector, entry by entry. -/
def lo256 (g : (⟨1, ![256]⟩ : Shape).Idx → EReal) : Fin 128 → EReal := fun k => g (ix1 ⟨k.val, by have := k.isLt; omega⟩)
/-- The second half of a 256-vector. -/
def hi256 (g : (⟨1, ![256]⟩ : Shape).Idx → EReal) : Fin 128 → EReal := fun k => g (ix1 ⟨128 + k.val, by have := k.isLt; omega⟩)
/-- Column `q` of the first 128 rows of a 256 × 128 matrix. -/
def loCol (W : (⟨2, ![256, 128]⟩ : Shape).Idx → EReal) (q : Fin 128) : Fin 128 → EReal :=
  fun k => W (ix2 ⟨k.val, by have := k.isLt; omega⟩ q)
/-- Column `q` of the last 128 rows. -/
def hiCol (W : (⟨2, ![256, 128]⟩ : Shape).Idx → EReal) (q : Fin 128) : Fin 128 → EReal :=
  fun k => W (ix2 ⟨128 + k.val, by have := k.isLt; omega⟩ q)

/-- Entry `(e, q)` of the result. -/
def outRow (xs xd ea : (⟨2, ![600000, 128]⟩ : Shape).Idx → EReal) (g be : (⟨1, ![256]⟩ : Shape).Idx → EReal)
    (W : (⟨2, ![256, 128]⟩ : Shape).Idx → EReal) (b : (⟨1, ![128]⟩ : Shape).Idx → EReal) (e : Fin 600000) (q : Fin 128) : EReal :=
  splitRow (fun k => xs (ix2 e k)) (fun k => xd (ix2 e k)) (lo256 g) (hi256 g) (lo256 be) (hi256 be) (loCol W q) (hiCol W q)
    (ea (ix2 e q)) (b (ix1 q))

/-- The result array. -/
def outArr (xs xd ea : (⟨2, ![600000, 128]⟩ : Shape).Idx → EReal) (g be : (⟨1, ![256]⟩ : Shape).Idx → EReal)
    (W : (⟨2, ![256, 128]⟩ : Shape).Idx → EReal) (b : (⟨1, ![128]⟩ : Shape).Idx → EReal) :
    (⟨2, ![600000, 128]⟩ : Shape).Idx → EReal :=
  fun i => outRow xs xd ea g be W b ⟨(i 0).val, (i 0).isLt⟩ ⟨(i 1).val, (i 1).isLt⟩

theorem outArr_ix2 (xs xd ea : (⟨2, ![600000, 128]⟩ : Shape).Idx → EReal) (g be : (⟨1, ![256]⟩ : Shape).Idx → EReal)
    (W : (⟨2, ![256, 128]⟩ : Shape).Idx → EReal) (b : (⟨1, ![128]⟩ : Shape).Idx → EReal) (e : Fin 600000) (q : Fin 128) :
    outArr xs xd ea g be W b (ix2 e q) = outRow xs xd ea g be W b e q := rfl

/-- A 256-vector is its two halves laid end to end. -/
theorem append_halves (g : (⟨1, ![256]⟩ : Shape).Idx → EReal) : (fun k : Fin 256 => g (ix1 k)) = append (lo256 g) (hi256 g) := by
  funext k
  unfold append lo256 hi256
  by_cases h : k.val < 128
  · rw [dif_pos h]
  · rw [dif_neg h]
    exact congrArg (fun j => g (ix1 j)) (Fin.ext (by show k.val = 128 + (k.val - 128); omega))

/-- Column `q` of a 256 × 128 matrix is column `q` of its two row halves laid end to end. -/
theorem append_cols (W : (⟨2, ![256, 128]⟩ : Shape).Idx → EReal) (q : Fin 128) :
    (fun k : Fin 256 => W (ix2 k q)) = append (loCol W q) (hiCol W q) := by
  funext k
  unfold append loCol hiCol
  by_cases h : k.val < 128
  · rw [dif_pos h]
  · rw [dif_neg h]
    exact congrArg (fun j => W (ix2 j q)) (Fin.ext (by show k.val = 128 + (k.val - 128); omega))

end Cert.EdgeNorm

end
-- ==== Proof.KernelInputs.lean ====
/-
  Under the precondition the arrays the region finds are plain functions of the arguments: every node id is in
  `[0, 100000)`, so both filling takes are the plain gathers of the node rows — the very gathers the reference
  makes —, and the small windows are the halves of the scales, shifts and weights and the bias. So the kernel's
  result array `kerArr` is the result array `EdgeNorm.outArr` of the gathered rows and the other arguments.
-/
import proofs.«416969_j81123342287180_1_alg».proof.Defs
import proofs.«416969_j81123342287180_1_alg».proof.Proof.KernelEndpoints
import proofs.«416969_j81123342287180_1_alg».proof.Proof.KernelParams
import proofs.«416969_j81123342287180_1_alg».proof.Proof.KernelArray
import proofs.«416969_j81123342287180_1_alg».proof.Proof.EdgeArray
import proofs.«416969_j81123342287180_1_alg».proof.Proof.Gen.ReferenceIdeal.Read

noncomputable section

namespace Cert.KernelIdeal.Inputs

open Cert.KernelIdeal Cert.KernelIdeal.Gen Idealize.ShloMosaic Idealize.ShloMosaic.TcCoe Idealize.SL.Sem Idealize.ShloMosaic.ValueIdx Cert.EdgeNorm

variable [hPre : Cert.Pre_finite_inputs.Facts]
variable (m : (ℓ : Loc nD τ sig) → Buf (Elt Ideal) ℓ)

/-- Every entry of the index pairs is a node id. -/
theorem ids (hpre : Cert.Pre_KernelIdeal m) (c : Dev nD) (i : S2x600000.Idx) :
    IntOp.cmpi .sge ((m ((c : Thread nD τ).loc main_arg1)) i) 0#32 = 1#1 ∧ IntOp.cmpi .slt ((m ((c : Thread nD τ).loc main_arg1)) i) 100000#32 = 1#1 :=
  Cert.NodeIds.ids_in_range _ _ _ _ _ _ _ (hpre c) i

/-- The first endpoint array is the reference's first gather. -/
theorem src_eq (hpre : Cert.Pre_KernelIdeal m) (c : Dev nD) :
    (V m c main_v2 : S600000x128.Idx → EReal) = Cert.ReferenceIdeal.Read.val_main_v8 (F := Ideal) (m ((c : Thread nD τ).loc main_arg0)) (m ((c : Thread nD τ).loc main_arg1)) :=
  (Endpoints.V_src m c).trans ((Endpoints.takeFill_of_inBounds _ _ (Endpoints.inBounds_wrapCol _ fun k => by
    obtain ⟨i, hi⟩ := Endpoints.idRow0_mem (m ((c : Thread nD τ).loc main_arg1)) k
    rw [hi]
    exact ids m hpre c i)).trans rfl)

/-- The second endpoint array is the reference's second gather. -/
theorem dst_eq (hpre : Cert.Pre_KernelIdeal m) (c : Dev nD) :
    (V m c main_v5 : S600000x128.Idx → EReal) = Cert.ReferenceIdeal.Read.val_main_v17 (F := Ideal) (m ((c : Thread nD τ).loc main_arg0)) (m ((c : Thread nD τ).loc main_arg1)) :=
  (Endpoints.V_dst m c).trans ((Endpoints.takeFill_of_inBounds _ _ (Endpoints.inBounds_wrapCol _ fun k => by
    obtain ⟨i, hi⟩ := Endpoints.idRow1_mem (m ((c : Thread nD τ).loc main_arg1)) k
    rw [hi]
    exact ids m hpre c i)).trans rfl)

/-- The kernel's result array is the result array of the gathered rows and the other arguments. -/
theorem kerArr_eq (hpre : Cert.Pre_KernelIdeal m) (c : Dev nD) :
    ArrayValue.kerArr m c
      = outArr (Cert.ReferenceIdeal.Read.val_main_v8 (F := Ideal) (m ((c : Thread nD τ).loc main_arg0)) (m ((c : Thread nD τ).loc main_arg1)))
          (Cert.ReferenceIdeal.Read.val_main_v17 (F := Ideal) (m ((c : Thread nD τ).loc main_arg0)) (m ((c : Thread nD τ).loc main_arg1)))
          (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨e, q, rfl⟩ : ∃ (e : Fin 600000) (q : Fin 128), i = ix2 e q := ⟨i 0, i 1, eq_ix2 i⟩
  rw [ArrayValue.kerArr_ix2, outArr_ix2]
  unfold ArrayValue.kerRow outRow
  have h0 : (fun k : Fin 128 => V m c main_v2 (ix2 e k)) = fun k => Cert.ReferenceIdeal.Read.val_main_v8 (F := Ideal) (m ((c : Thread nD τ).loc main_arg0)) (m ((c : Thread nD τ).loc main_arg1)) (ix2 e k) :=
    funext fun k => congrFun (src_eq m hpre c) (ix2 e k)
  have h1 : (fun k : Fin 128 => V m c main_v5 (ix2 e k)) = fun k => Cert.ReferenceIdeal.Read.val_main_v17 (F := Ideal) (m ((c : Thread nD τ).loc main_arg0)) (m ((c : Thread nD τ).loc main_arg1)) (ix2 e k) :=
    funext fun k => congrFun (dst_eq m hpre c) (ix2 e k)
  have h2 : V m c main_arg2 (ix2 e q) = (m ((c : Thread nD τ).loc main_arg2)) (ix2 e q) := congrFun (V_main_arg2 m c) (ix2 e q)
  have h3 : (fun k : Fin 128 => V m c main_v7 (ix2 (0 : Fin 1) k)) = lo256 (m ((c : Thread nD τ).loc main_arg3)) := funext fun k => by
    rw [Params.V_scale_lo]; exact Params.half_row_apply 0 _ _ _ 0 k ⟨k.val, by have := k.isLt; omega⟩ (Nat.zero_add _).symm
  have h4 : (fun k : Fin 128 => V m c main_v9 (ix2 (0 : Fin 1) k)) = hi256 (m ((c : Thread nD τ).loc main_arg3)) := funext fun k => by
    rw [Params.V_scale_hi]; exact Params.half_row_apply 128 _ _ _ 0 k ⟨128 + k.val, by have := k.isLt; omega⟩ rfl
  have h5 : (fun k : Fin 128 => V m c main_v11 (ix2 (0 : Fin 1) k)) = lo256 (m ((c : Thread nD τ).loc main_arg4)) := funext fun k => by
    rw [Params.V_shift_lo]; exact Params.half_row_apply 0 _ _ _ 0 k ⟨k.val, by have := k.isLt; omega⟩ (Nat.zero_add _).symm
  have h6 : (fun k : Fin 128 => V m c main_v13 (ix2 (0 : Fin 1) k)) = hi256 (m ((c : Thread nD τ).loc main_arg4)) := funext fun k => by
    rw [Params.V_shift_hi]; exact Params.half_row_apply 128 _ _ _ 0 k ⟨128 + k.val, by have := k.isLt; omega⟩ rfl
  have h7 : (fun k : Fin 128 => V m c main_v14 (ix2 k q)) = loCol (m ((c : Thread nD τ).loc main_arg5)) q := funext fun k => by
    rw [Params.V_weight_lo]; exact slice2_axis0_apply 0 _ _ k q ⟨k.val, by have := k.isLt; omega⟩ (Nat.zero_add _).symm
  have h8 : (fun k : Fin 128 => V m c main_v15 (ix2 k q)) = hiCol (m ((c : Thread nD τ).loc main_arg5)) q := funext fun k => by
    rw [Params.V_weight_hi]; exact slice2_axis0_apply 128 _ _ k q ⟨128 + k.val, by have := k.isLt; omega⟩ rfl
  have h9 : V m c main_v16 (ix2 (0 : Fin 1) q) = (m ((c : Thread nD τ).loc main_arg6)) (ix1 q) := by
    rw [Params.V_bias]; exact shapeCast_a_1a_apply _ _ 0 q
  rw [h0, h1, h2, h3, h4, h5, h6, h7, h8, h9]

end Cert.KernelIdeal.Inputs

end
-- ==== Proof.ReferenceRow.lean ====
/-
  The reference's result at one entry, as a function of the joined endpoint rows: entry `(e, q)` of the
  600000 × 128 result is `EdgeNorm.joinedRow` of row `e` of the concatenated gathered rows, the 256 scales and
  shifts, column `q` of the 256 × 128 weights, entry `(e, q)` of the edge array and entry `q` of the bias; and row
  `e` of the concatenation is row `e` of the first gathered array followed by row `e` of the second.
-/
import proofs.«416969_j81123342287180_1_alg».proof.Proof.Gen.ReferenceIdeal.Read
import proofs.«416969_j81123342287180_1_alg».proof.Proof.EdgeNorm
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Cert.ReferenceIdeal Cert.ReferenceIdeal.Read Idealize.ShloMosaic Idealize.ShloMosaic.ValueIdx Cert.EdgeNorm

/-! ## Where each operation reads: the index maps at indices built from coordinates -/

/-- The contraction reads row `e` of its left operand at column `k`. -/
theorem lidx_at (e : Fin 600000) (q : Fin 128) (k : Fin 256) : lidx_main_v45 (ix2 e q) k = ix2 e k :=
  funext fun a => Fin.ext (by match a with | ⟨0, _⟩ => rfl | ⟨1, _⟩ => rfl)

/-- The contraction reads column `q` of its right operand at row `k`. -/
theorem ridx_at (e : Fin 600000) (q : Fin 128) (k : Fin 256) : ridx_main_v45 (ix2 e q) k = ix2 k q :=
  funext fun a => Fin.ext (by match a with | ⟨0, _⟩ => rfl | ⟨1, _⟩ => rfl)

/-- A per-row column, spread over the 256 columns, is read at its only column. -/
theorem idx23_at (e : Fin 600000) (k : Fin 256) : idx_main_v23 (ix2 e k) = ix2 e (⟨0, Nat.one_pos⟩ : Fin 1) :=
  funext fun a => Fin.ext (by match a with | ⟨0, _⟩ => rfl | ⟨1, _⟩ => rfl)
theorem idx30_at (e : Fin 600000) (k : Fin 256) : idx_main_v30 (ix2 e k) = ix2 e (⟨0, Nat.one_pos⟩ : Fin 1) :=
  funext fun a => Fin.ext (by match a with | ⟨0, _⟩ => rfl | ⟨1, _⟩ => rfl)
theorem idx35_at (e : Fin 600000) (k : Fin 256) : idx_main_v35 (ix2 e k) = ix2 e (⟨0, Nat.one_pos⟩ : Fin 1) :=
  funext fun a => Fin.ext (by match a with | ⟨0, _⟩ => rfl | ⟨1, _⟩ => rfl)

/-- A per-row column is the per-row vector with a unit axis appended. -/
theorem idx20_at (e : Fin 600000) (z : Fin 1) : idx_main_v20 (ix2 e z) = ix1 e :=
  funext fun a => Fin.ext (by match a with | ⟨0, _⟩ => rfl)
theorem idx27_at (e : Fin 600000) (z : Fin 1) : idx_main_v27 (ix2 e z) = ix1 e :=
  funext fun a => Fin.ext (by match a with | ⟨0, _⟩ => rfl)

/-- The row sums run over the columns of row `e`. -/
theorem idx19_at (e : Fin 600000) (k : Fin 256) : idx_main_v19 (ix1 e) k = ix2 e k :=
  funext fun a => Fin.ext (by match a with | ⟨0, _⟩ => rfl | ⟨1, _⟩ => rfl)
theorem idx26_at (e : Fin 600000) (k : Fin 256) : idx_main_v26 (ix1 e) k = ix2 e k :=
  funext fun a => Fin.ext (by match a with | ⟨0, _⟩ => rfl | ⟨1, _⟩ => rfl)

/-- The scales and the shifts are one row, repeated for every `e`. -/
theorem idx38_at (e : Fin 600000) (k : Fin 256) : idx_main_v37 (idx_main_v38 (ix2 e k)) = ix1 k :=
  funext fun a => Fin.ext (by match a with | ⟨0, _⟩ => rfl)
theorem idx41_at (e : Fin 600000) (k : Fin 256) : idx_main_v40 (idx_main_v41 (ix2 e k)) = ix1 k :=
  funext fun a => Fin.ext (by match a with | ⟨0, _⟩ => rfl)

/-- The bias is one row, repeated for every `e`. -/
theorem idx47_at (e : Fin 600000) (q : Fin 128) : idx_main_v46 (idx_main_v47 (ix2 e q)) = ix1 q :=
  funext fun a => Fin.ext (by match a with | ⟨0, _⟩ => rfl)

/-! ## The row statistics -/

/-- The per-row mean column is `mean1` of the joined row. -/
theorem mean_at (x0 : (⟨S100000x128, .f32⟩ : BufTy).Contents (Elt Ideal)) (x1 : (⟨S2x600000, .i32⟩ : BufTy).Contents (Elt Ideal))
    (e : Fin 600000) (z : Fin 1) :
    val_main_v22 (F := Ideal) x0 x1 (ix2 e z) = mean1 (fun k : Fin 256 => val_main_v18 (F := Ideal) x0 x1 (ix2 e k)) := by
  rw [val_main_v22_apply, val_main_v20_apply, val_main_v21_apply, val_main_cst_3_apply, idx20_at, val_main_v19_apply,
    val_main_cst_apply]
  generalize val_main_v18 (F := Ideal) x0 x1 = H
  simp only [idx19_at, Ideal.hostDivf_def, Ideal.ofBits_def]
  rfl

/-- The per-row reciprocal standard deviation column is `rstd1` of the joined row. -/
theorem rstd_at (x0 : (⟨S100000x128, .f32⟩ : BufTy).Contents (Elt Ideal)) (x1 : (⟨S2x600000, .i32⟩ : BufTy).Contents (Elt Ideal))
    (e : Fin 600000) (z : Fin 1) :
    val_main_v34 (F := Ideal) x0 x1 (ix2 e z) = rstd1 (fun k : Fin 256 => val_main_v18 (F := Ideal) x0 x1 (ix2 e k)) := by
  rw [val_main_v34_apply, val_main_v33_apply, val_main_v29_apply, val_main_v27_apply, val_main_v28_apply, val_main_v32_apply,
    val_main_cst_5_apply, val_main_cst_6_apply, idx27_at, val_main_v26_apply, val_main_cst_4_apply]
  simp only [idx26_at, val_main_v25_apply, val_main_v24_apply, val_main_v23_apply, idx23_at, mean_at]
  generalize val_main_v18 (F := Ideal) x0 x1 = H
  simp only [Ideal.hostDivf_def, Ideal.ofBits_def, Ideal.hostUnary_rsqrt_def, Ideal.addf_def, Ideal.subf_def, Ideal.mulf_def]
  rfl

/-- One entry of the normalised, scaled, shifted and rectified array is `act` of the joined row's entry. -/
theorem act_at (x0 : (⟨S100000x128, .f32⟩ : BufTy).Contents (Elt Ideal)) (x1 : (⟨S2x600000, .i32⟩ : BufTy).Contents (Elt Ideal))
    (x3 x4 : (⟨S256, .f32⟩ : BufTy).Contents (Elt Ideal)) (e : Fin 600000) (k : Fin 256) :
    val_main_v44 (F := Ideal) x0 x1 x3 x4 (ix2 e k)
      = act (val_main_v18 (F := Ideal) x0 x1 (ix2 e k)) (mean1 (fun k : Fin 256 => val_main_v18 (F := Ideal) x0 x1 (ix2 e k)))
          (rstd1 (fun k : Fin 256 => val_main_v18 (F := Ideal) x0 x1 (ix2 e k))) (x3 (ix1 k)) (x4 (ix1 k)) := by
  rw [val_main_v44_apply, val_main_v42_apply, val_main_v39_apply, val_main_v36_apply, val_main_v31_apply, val_main_v30_apply,
    val_main_v35_apply, val_main_v38_apply, val_main_v37_apply, val_main_v41_apply, val_main_v40_apply, val_main_v43_apply,
    val_main_cst_7_apply, idx30_at, idx35_at, idx38_at, idx41_at, mean_at, rstd_at]
  generalize val_main_v18 (F := Ideal) x0 x1 = H
  simp only [Ideal.ofBits_def, Ideal.addf_def, Ideal.subf_def, Ideal.mulf_def, Ideal.maximumf_def]
  rfl

theorem result_at (x0 : (⟨S100000x128, .f32⟩ : BufTy).Contents (Elt Ideal)) (x1 : (⟨S2x600000, .i32⟩ : BufTy).Contents (Elt Ideal))
    (x2 : (⟨S600000x128, .f32⟩ : BufTy).Contents (Elt Ideal)) (x3 x4 : (⟨S256, .f32⟩ : BufTy).Contents (Elt Ideal))
    (x5 : (⟨S256x128, .f32⟩ : BufTy).Contents (Elt Ideal)) (x6 : (⟨S128, .f32⟩ : BufTy).Contents (Elt Ideal))
    (e : Fin 600000) (q : Fin 128) :
    val_main_v49 (F := Ideal) x0 x1 x2 x3 x4 x5 x6 (ix2 e q)
      = joinedRow (fun k : Fin 256 => val_main_v18 (F := Ideal) x0 x1 (ix2 e k)) (fun k => x3 (ix1 k)) (fun k => x4 (ix1 k))
          (fun k => x5 (ix2 k q)) (x2 (ix2 e q)) (x6 (ix1 q)) := by
  rw [val_main_v49_apply, val_main_v48_apply, val_main_v45_apply, val_main_v47_apply, val_main_v46_apply, idx47_at]
  simp only [lidx_at, ridx_at, act_at]
  generalize val_main_v18 (F := Ideal) x0 x1 = H
  simp only [Ideal.addf_def]
  rfl

theorem joined_row (x0 : (⟨S100000x128, .f32⟩ : BufTy).Contents (Elt Ideal)) (x1 : (⟨S2x600000, .i32⟩ : BufTy).Contents (Elt Ideal))
    (e : Fin 600000) :
    (fun k : Fin 256 => val_main_v18 (F := Ideal) x0 x1 (ix2 e k))
      = append (fun k => val_main_v8 (F := Ideal) x0 x1 (ix2 e k)) (fun k => val_main_v17 (F := Ideal) x0 x1 (ix2 e k)) := by
  funext k
  unfold val_main_v18 append
  generalize val_main_v8 (F := Ideal) x0 x1 = A
  generalize val_main_v17 (F := Ideal) x0 x1 = B
  by_cases hk : k.val < 128
  · -- a column below 128 lies in the first piece, at the same column
    rw [dif_pos hk]
    exact concatenate_pair_apply_left (1 : Fin S600000x256.rank) A B _ (ix2 e k) rfl (ix2 e ⟨k.val, hk⟩)
      (fun b => by match b with | ⟨0, _⟩ => rfl | ⟨1, _⟩ => rfl)
  · -- a column from 128 on lies in the second piece, 128 columns earlier
    rw [dif_neg hk]
    exact concatenate_pair_apply_right (1 : Fin S600000x256.rank) A B _ (ix2 e k) rfl rfl
      (ix2 e ⟨k.val - 128, by have := k.isLt; omega⟩)
      (fun b hb => by match b, hb with | ⟨0, _⟩, _ => rfl | ⟨1, _⟩, hb => exact absurd rfl hb)
      (by show (k.val - 128) + 128 = k.val; omega)

end Cert.ReferenceIdeal.RowValue

end
-- ==== Proof.ReferenceArray.lean ====
/-
  The reference's whole result is the result array `EdgeNorm.outArr` of the two gathered endpoint arrays and the
  other arguments: entry by entry the joined-vector arrangement of a joined row is the split arrangement of its halves.
-/
import proofs.«416969_j81123342287180_1_alg».proof.Proof.ReferenceRow
import proofs.«416969_j81123342287180_1_alg».proof.Proof.EdgeArray

noncomputable section

namespace Cert.ReferenceIdeal.RowValue

open Cert.ReferenceIdeal Cert.ReferenceIdeal.Read Idealize.ShloMosaic Idealize.ShloMosaic.ValueIdx Cert.EdgeNorm

theorem result_eq (x0 : (⟨S100000x128, .f32⟩ : BufTy).Contents (Elt Ideal)) (x1 : (⟨S2x600000, .i32⟩ : BufTy).Contents (Elt Ideal))
    (x2 : (⟨S600000x128, .f32⟩ : BufTy).Contents (Elt Ideal)) (x3 x4 : (⟨S256, .f32⟩ : BufTy).Contents (Elt Ideal))
    (x5 : (⟨S256x128, .f32⟩ : BufTy).Contents (Elt Ideal)) (x6 : (⟨S128, .f32⟩ : BufTy).Contents (Elt Ideal)) :
    val_main_v49 (F := Ideal) x0 x1 x2 x3 x4 x5 x6
      = outArr (val_main_v8 (F := Ideal) x0 x1) (val_main_v17 (F := Ideal) x0 x1) x2 x3 x4 x5 x6 := by
  funext i
  obtain ⟨e, q, rfl⟩ : ∃ (e : Fin 600000) (q : Fin 128), i = ix2 e q := ⟨i 0, i 1, eq_ix2 i⟩
  rw [result_at, joined_row, append_halves x3, append_halves x4, append_cols x5 q, joinedRow_append]
  rfl

end Cert.ReferenceIdeal.RowValue

end
-- ==== Proof.lean ====
/-
  An edge update of a graph network: for each of 600000 edges the feature rows of its two endpoints are gathered
  from the 100000 × 128 node array, the joined 256-vector is normalised (mean and variance over its 256 entries,
  `(x - μ) · (σ² + ε)^(-1/2) · γ + β`), rectified, multiplied by the 256 × 128 weights, the bias is added, and the
  result is added to the edge's own 128 features.

  The kernel never joins the two rows: it keeps the two 128-halves apart (two sums of 128 terms wherever the
  reference has one of 256, the mean by a product with `2⁻⁸` where the reference divides by `256`, two 128 × 128
  products where the reference has one 256 × 128 product) and works on blocks of 4000 edges. On the extended reals
  the two arrangements agree entry by entry (`EdgeNorm.joinedRow_append`): a finite sum splits, dividing by `256` is
  multiplying by `2⁻⁸`, addition is associative; no finiteness is used.

  The two programs gather differently: the kernel's take replaces the row of an out-of-range index by a constant,
  the reference's indexing clamps the index. Under the precondition every node id is in `[0, 100000)`, both are the
  same plain gather, and the two results are one array, `EdgeNorm.outArr` of the gathered rows and the other arguments.

  The three frames are the generated ones (the reference's is its run with the result dropped); the idealization
  rewrote nothing, so `preserves` is trivial.
-/
import proofs.«416969_j81123342287180_1_alg».proof.Defs
import proofs.«416969_j81123342287180_1_alg».proof.Proof.Gen.Kernel
import proofs.«416969_j81123342287180_1_alg».proof.Proof.Gen.Kernel.Skeleton
import proofs.«416969_j81123342287180_1_alg».proof.Proof.Gen.Kernel.Launch
import proofs.«416969_j81123342287180_1_alg».proof.Proof.Gen.Kernel.Points
import proofs.«416969_j81123342287180_1_alg».proof.Proof.Gen.Kernel.Frame
import proofs.«416969_j81123342287180_1_alg».proof.Proof.Gen.KernelIdeal
import proofs.«416969_j81123342287180_1_alg».proof.Proof.Gen.KernelIdeal.Skeleton
import proofs.«416969_j81123342287180_1_alg».proof.Proof.Gen.KernelIdeal.Launch
import proofs.«416969_j81123342287180_1_alg».proof.Proof.Gen.KernelIdeal.Points
import proofs.«416969_j81123342287180_1_alg».proof.Proof.Gen.KernelIdeal.Frame
import proofs.«416969_j81123342287180_1_alg».proof.Proof.Gen.ReferenceIdeal
import proofs.«416969_j81123342287180_1_alg».proof.Proof.Gen.Pre_finite_inputs
import proofs.«416969_j81123342287180_1_alg».proof.Proof.Gen.KernelIdeal.Value
import proofs.«416969_j81123342287180_1_alg».proof.Proof.Gen.ReferenceIdeal.Run
import proofs.«416969_j81123342287180_1_alg».proof.Proof.Gen.ReferenceIdeal.Read
import proofs.«416969_j81123342287180_1_alg».proof.Proof.KernelInputs
import proofs.«416969_j81123342287180_1_alg».proof.Proof.ReferenceArray
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result array `EdgeNorm.outArr` of the gathered endpoint rows and the other
    arguments: the kernel's blocks tile it (`ArrayValue.run`, then `Inputs.kerArr_eq` under the precondition), and
    the reference's last stage is it (`RowValue.result_eq`) of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.EdgeNorm.outArr
      (Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Inputs.kerArr_eq m hpre c), (h c).2⟩)
      (Cert.KernelIdeal.ArrayValue.run m ρ)
  · refine (θ_run Cert.ReferenceIdeal.defs _ _).mono (fun r h c => ⟨?_, (h c).2⟩)
      (Cert.ReferenceIdeal.Value.run (F := Ideal) m' ρ')
    obtain ⟨h0, h1, h2, h3, h4, h5, h6⟩ := hagree c
    rw [(h c).1, Cert.ReferenceIdeal.Read.val_main_v49_eq, Cert.ReferenceIdeal.RowValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
